-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x1024 : Shape := ⟨3, ![256, 128, 1024]⟩
abbrev S1024x512 : Shape := ⟨2, ![1024, 512]⟩
abbrev S512x1 : Shape := ⟨2, ![512, 1]⟩
abbrev S_ : Shape := ⟨0, ![]⟩

class Facts : Prop where
  bcast_S_S256x128x1024 : S_.BroadcastsInDim S256x128x1024 (![] : Fin 0 → Fin S256x128x1024.rank)
  reducesTo_S256x128x1024_S_d0_1_2 : S256x128x1024.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  main_v18

def fn {F : FTy → Type} [FloatOps F] (main_arg0 : FVec F S256x128x1024 .f32) (main_arg1 : FVec F S1024x512 .f32) (main_arg2 : FVec F S1024x512 .f32) (main_arg3 : FVec F S512x1 .f32) : IVec S_ 1 :=
  let main_v0 : FVec F S256x128x1024 .f32 := Host.absf main_arg0
  let main_cst : FVec F S_ .f32 := constant S_ .f32 0x7F800000#32
  let main_v1 : FVec F S256x128x1024 .f32 := broadcastInDim S256x128x1024 ![] bcast_S_S256x128x1024 main_cst
  let main_v2 : IVec S256x128x1024 1 := cmpf .olt main_v0 main_v1
  let main_c : IVec S_ 1 := constantI S_ 1 1#1
  let main_v3 : IVec S_ 1 := (fun x v => Host.reduce IntOp.andi x v reducesTo_S256x128x1024_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_v13 main_v16
-- ==== Kernel.lean ====
abbrev S256x128x1024 : Shape := ⟨3, ![256, 128, 1024]⟩
abbrev S1024x512 : Shape := ⟨2, ![1024, 512]⟩
abbrev S512x1 : Shape := ⟨2, ![512, 1]⟩
abbrev S32768x1024 : Shape := ⟨2, ![32768, 1024]⟩
abbrev S1x512 : Shape := ⟨2, ![1, 512]⟩
abbrev S32768x1 : Shape := ⟨2, ![32768, 1]⟩
abbrev S1024x1024 : Shape := ⟨2, ![1024, 1024]⟩
abbrev S1024x1 : Shape := ⟨2, ![1024, 1]⟩
abbrev S1024 : Shape := ⟨1, ![1024]⟩
abbrev S256x128x1 : Shape := ⟨3, ![256, 128, 1]⟩
abbrev S_ : Shape := ⟨0, ![]⟩
abbrev S128x1 : Shape := ⟨2, ![128, 1]⟩
abbrev S1x128x1 : Shape := ⟨3, ![1, 128, 1]⟩

abbrev nBuf : Space → Nat
  | .hbm => 24
  | .vmem => 7
  | .smem => 0
  | _ => 0

abbrev bufTy : (tb : Table) → Fin (tcTables nBuf tb) → BufTy
  | .hbm, ⟨0, _⟩ => ⟨S256x128x1024, .f32⟩
  | .hbm, ⟨1, _⟩ => ⟨S1024x512, .f32⟩
  | .hbm, ⟨2, _⟩ => ⟨S1024x512, .f32⟩
  | .hbm, ⟨3, _⟩ => ⟨S512x1, .f32⟩
  | .hbm, ⟨4, _⟩ => ⟨S32768x1024, .f32⟩
  | .hbm, ⟨5, _⟩ => ⟨S1024x512, .bf16⟩
  | .hbm, ⟨6, _⟩ => ⟨S1024x512, .bf16⟩
  | .hbm, ⟨7, _⟩ => ⟨S1x512, .f32⟩
  | .hbm, ⟨8, _⟩ => ⟨S32768x1, .f32⟩
  | .hbm, ⟨9, _⟩ => ⟨S256x128x1, .f32⟩
  | .hbm, ⟨10, _⟩ => ⟨S_, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S1x128x1, .f32⟩
  | .hbm, ⟨16, _⟩ => ⟨S256x128x1, .f32⟩
  | .hbm, ⟨17, _⟩ => ⟨S256x128x1, .f32⟩
  | .hbm, ⟨18, _⟩ => ⟨S256x128x1, .f32⟩
  | .hbm, ⟨19, _⟩ => ⟨S_, .f32⟩
  | .hbm, ⟨20, _⟩ => ⟨S128x1, .f32⟩
  | .hbm, ⟨21, _⟩ => ⟨S1x128x1, .f32⟩
  | .hbm, ⟨22, _⟩ => ⟨S256x128x1, .f32⟩
  | .hbm, ⟨23, _⟩ => ⟨S256x128x1, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1024x1, .f32⟩
  | .local _ .vmem, ⟨6, _⟩ => ⟨S1024x1, .f32⟩
  | _, _ => ⟨S256x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256x128x1024_S32768x1024 : S256x128x1024.ShapeCasts S32768x1024
  bitsLt_bf16_f32 : FTy.bits .bf16 < FTy.bits .f32
  transposes_S512x1_S1x512_1_0 : S512x1.Transposes [1, 0] S1x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S32768x1_S256x128x1 : S32768x1.ShapeCasts S256x128x1
  reducesTo_S256x128x1_S128x1_d0 : S256x128x1.ReducesTo [0] S128x1
  h_S_ : 0 < S_.numel
  bcast_S_S128x1 : S_.BroadcastsInDim S128x1 (![] : Fin 0 → Fin S128x1.rank)
  bcast_S128x1_S1x128x1_1_2 : S128x1.BroadcastsInDim S1x128x1 (![1, 2] : Fin 2 → Fin S1x128x1.rank)
  bcast_S1x128x1_S256x128x1_0_1_2 : S1x128x1.BroadcastsInDim S256x128x1 (![0, 1, 2] : Fin 3 → Fin S256x128x1.rank)
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S32768x1.size a
  hwx0_4 : ∀ i : grid0.Coords, EltTy.bits .f32 = 32 ∨ (Rect.block (s := S32768x1) S1024x1.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x128x1024 : Shape := ⟨3, ![256, 128, 1024]⟩
abbrev S1024x512 : Shape := ⟨2, ![1024, 512]⟩
abbrev S512x1 : Shape := ⟨2, ![512, 1]⟩
abbrev S256x128x512 : Shape := ⟨3, ![256, 128, 512]⟩
abbrev S_ : Shape := ⟨0, ![]⟩
abbrev S256x128x1 : Shape := ⟨3, ![256, 128, 1]⟩
abbrev S128x1 : Shape := ⟨2, ![128, 1]⟩
abbrev S1x128x1 : Shape := ⟨3, ![1, 128, 1]⟩

abbrev nBuf : Space → Nat
  | .hbm => 31
  | .vmem => 0
  | .smem => 0
  | _ => 0

abbrev bufTy : (tb : Table) → Fin (tcTables nBuf tb) → BufTy
  | .hbm, ⟨0, _⟩ => ⟨S256x128x1024, .f32⟩
  | .hbm, ⟨1, _⟩ => ⟨S1024x512, .f32⟩
  | .hbm, ⟨2, _⟩ => ⟨S1024x512, .f32⟩
  | .hbm, ⟨3, _⟩ => ⟨S512x1, .f32⟩
  | .hbm, ⟨4, _⟩ => ⟨S256x128x512, .f32⟩
  | .hbm, ⟨5, _⟩ => ⟨S256x128x512, .f32⟩
  | .hbm, ⟨6, _⟩ => ⟨S256x128x512, .f32⟩
  | .hbm, ⟨7, _⟩ => ⟨S256x128x512, .f32⟩
  | .hbm, ⟨8, _⟩ => ⟨S256x128x512, .f32⟩
  | .hbm, ⟨9, _⟩ => ⟨S_, .f32⟩
  | .hbm, ⟨10, _⟩ => ⟨S256x128x512, .f32⟩
  | .hbm, ⟨11, _⟩ => ⟨S256x128x512, .f32⟩
  | .hbm, ⟨12, _⟩ => ⟨S_, .f32⟩
  | .hbm, ⟨13, _⟩ => ⟨S256x128x512, .f32⟩
  | .hbm, ⟨14, _⟩ => ⟨S256x128x512, .f32⟩
  | .hbm, ⟨15, _⟩ => ⟨S256x128x512, .f32⟩
  | .hbm, ⟨16, _⟩ => ⟨S256x128x1, .f32⟩
  | .hbm, ⟨17, _⟩ => ⟨S_, .f32⟩
  | .hbm, ⟨18, _⟩ => ⟨S128x1, .f32⟩
  | .hbm, ⟨19, _⟩ => ⟨S_, .f32⟩
  | .hbm, ⟨20, _⟩ => ⟨S128x1, .f32⟩
  | .hbm, ⟨21, _⟩ => ⟨S128x1, .f32⟩
  | .hbm, ⟨22, _⟩ => ⟨S1x128x1, .f32⟩
  | .hbm, ⟨23, _⟩ => ⟨S256x128x1, .f32⟩
  | .hbm, ⟨24, _⟩ => ⟨S256x128x1, .f32⟩
  | .hbm, ⟨25, _⟩ => ⟨S256x128x1, .f32⟩
  | .hbm, ⟨26, _⟩ => ⟨S_, .f32⟩
  | .hbm, ⟨27, _⟩ => ⟨S128x1, .f32⟩
  | .hbm, ⟨28, _⟩ => ⟨S1x128x1, .f32⟩
  | .hbm, ⟨29, _⟩ => ⟨S256x128x1, .f32⟩
  | .hbm, ⟨30, _⟩ => ⟨S256x128x1, .f32⟩
  | _, _ => ⟨S256x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S256x128x512 : S_.BroadcastsInDim S256x128x512 (![] : Fin 0 → Fin S256x128x512.rank)
  reducesTo_S256x128x1_S128x1_d0 : S256x128x1.ReducesTo [0] S128x1
  h_S_ : 0 < S_.numel
  bcast_S_S128x1 : S_.BroadcastsInDim S128x1 (![] : Fin 0 → Fin S128x1.rank)
  bcast_S128x1_S1x128x1_1_2 : S128x1.BroadcastsInDim S1x128x1 (![1, 2] : Fin 2 → Fin S1x128x1.rank)
  bcast_S1x128x1_S256x128x1_0_1_2 : S1x128x1.BroadcastsInDim S256x128x1 (![0, 1, 2] : Fin 3 → Fin S256x128x1.rank)
  dot_S256x128x1024_S1024x512_S256x128x512_2_0_01_1_n_n_wf : DotDims.WF S256x128x1024 S1024x512 S256x128x512 [2] [0] [0, 1] [1] [] []
  dot_S256x128x512_S512x1_S256x128x1_2_0_01_1_n_n_wf : DotDims.WF S256x128x512 S512x1 S256x128x1 [2] [0] [0, 1] [1] [] []

variable [Facts₀]

def dot_S256x128x1024_S1024x512_S256x128x512_2_0_01_1_n_n : DotDims S256x128x1024 S1024x512 S256x128x512 where
  lhsContracting := [2]
  rhsContracting := [0]
  lhsNonContracting := [0, 1]
  rhsNonContracting := [1]
  lhsBatch := []
  rhsBatch := []
  wf := dot_S256x128x1024_S1024x512_S256x128x512_2_0_01_1_n_n_wf
def dot_S256x128x512_S512x1_S256x128x1_2_0_01_1_n_n : DotDims S256x128x512 S512x1 S256x128x1 where
  lhsContracting := [2]
  rhsContracting := [0]
  lhsNonContracting := [0, 1]
  rhsNonContracting := [1]
  lhsBatch := []
  rhsBatch := []
  wf := dot_S256x128x512_S512x1_S256x128x1_2_0_01_1_n_n_wf

class Facts : Prop extends Facts₀ where

variable [Facts]
-- ==== Proof.Spec.lean ====
/-
  Gated attention pooling, as functions on the extended reals.

  A bag holds 256 instances for each of 128 batch entries; an instance is a vector `x` of 1024 features.
  Its score is `∑ l, tanh (x · v_l) * logistic (x · u_l) * w_l` over the 512 hidden units `l`, where `v_l`, `u_l`
  are the columns of the two projections and `x · v_l = ∑ d, x_d * v_{d,l}`. The weights of the instances
  of one batch entry are the softmax of their scores over the instance axis.

  `rowScore` is the score of one instance given as a function of its feature position; `scores` lays the
  scores out as the [256, 128, 1] array and `flatScores` as the [32768, 1] array whose row `r = n * 128 + b`
  holds instance `n` of batch entry `b`. `softmaxInstances` is the softmax over the leading
  axis exactly as jax spells it: the maximum over the axis (from `-∞`), the exponentials of the differences,
  their sum (from `0`), the quotient.
-/
import Idealize.ShloMosaic.Lib.ValueIdx
import Idealize.ShloMosaic.Lib.Pipeline.Value
import Idealize.ShloMosaic.PureOps.Ideal.Laws

open scoped BigOperators

noncomputable section

namespace Cert.GatedPooling

open Idealize.ShloMosaic Idealize.ShloMosaic.ValueIdx

/-- The projections' shape, the score weights' shape, and the three layouts of instances. -/
abbrev SProj : Shape := ⟨2, ![1024, 512]⟩
abbrev SCol : Shape := ⟨2, ![512, 1]⟩
abbrev SBag : Shape := ⟨3, ![256, 128, 1024]⟩
abbrev SScores : Shape := ⟨3, ![256, 128, 1]⟩
abbrev SFlat : Shape := ⟨2, ![32768, 1]⟩

/-- One instance's score: over the hidden units, the tanh branch times the logistic gate times the unit's weight. -/
def rowScore (x : Fin 1024 → EReal) (v u : SProj.Idx → EReal) (w : Fin 512 → EReal) : EReal :=
  ∑ l : Fin 512, Ideal.tanh (∑ d : Fin 1024, x d * v (ix2 d l)) * Ideal.logistic (∑ d : Fin 1024, x d * u (ix2 d l)) * w l

/-- The scores as the [256, 128, 1] array: entry `(n, b, 0)` is the score of instance `n` of batch entry `b`. -/
def scores (x : SBag.Idx → EReal) (v u : SProj.Idx → EReal) (w : SCol.Idx → EReal) : SScores.Idx → EReal :=
  fun i => rowScore (fun d => x (ix3 (i 0) (i 1) d)) v u (fun l => w (ix2 l 0))

/-- Row `r` of the flattened bag is instance `r / 128` of batch entry `r % 128`. -/
def flatInst (r : Fin 32768) : Fin 256 := ⟨r.val / 128, by have := r.isLt; omega⟩
def flatBatch (r : Fin 32768) : Fin 128 := ⟨r.val % 128, Nat.mod_lt _ (by decide)⟩

/-- The scores as the [32768, 1] array. -/
def flatScores (x : SBag.Idx → EReal) (v u : SProj.Idx → EReal) (w : SCol.Idx → EReal) : SFlat.Idx → EReal :=
  fun j => rowScore (fun d => x (ix3 (flatInst (j 0)) (flatBatch (j 0)) d)) v u (fun l => w (ix2 l 0))

/-- Reshaped to [256, 128, 1], the flat scores are the scores: position `(n, b, 0)` is row `n * 128 + b`. -/
theorem shapeCast_flatScores (x : SBag.Idx → EReal) (v u : SProj.Idx → EReal) (w : SCol.Idx → EReal)
    (h : SFlat.ShapeCasts SScores) : shapeCast SScores (flatScores x v u w) h = scores x v u w := by
  funext i
  have h0 := (i 0).isLt
  have h1 := (i 1).isLt
  have h2 : (i 2).val = 0 := by have := (i 2).isLt; simp at this; omega
  simp only [Matrix.cons_val_zero, Matrix.cons_val_one] at h0 h1
  have hr : (i 0).val * 128 + (i 1).val < 32768 := by
    have : (i 0).val < 256 := h0
    have : (i 1).val < 128 := h1
    omega
  rw [shapeCast_apply (flatScores x v u w) h i (ix2 ⟨(i 0).val * 128 + (i 1).val, hr⟩ (0 : Fin 1)) (by
    rw [Shape.rowMajor_val_two, Shape.rowMajor_val_three]
    show ((i 0).val * 128 + (i 1).val) * 1 + 0 = ((i 0).val * 128 + (i 1).val) * 1 + (i 2).val
    rw [h2])]
  unfold flatScores scores
  have e0 : flatInst ⟨(i 0).val * 128 + (i 1).val, hr⟩ = i 0 := Fin.ext (by
    show ((i 0).val * 128 + (i 1).val) / 128 = (i 0).val
    have : (i 1).val < 128 := h1
    omega)
  have e1 : flatBatch ⟨(i 0).val * 128 + (i 1).val, hr⟩ = i 1 := Fin.ext (by
    show ((i 0).val * 128 + (i 1).val) % 128 = (i 1).val
    have : (i 1).val < 128 := h1
    omega)
  show rowScore (fun d => x (ix3 (flatInst ⟨(i 0).val * 128 + (i 1).val, hr⟩) (flatBatch ⟨(i 0).val * 128 + (i 1).val, hr⟩) d)) v u _ = _
  rw [e0, e1]

/-- The softmax over the instance axis of a [256, 128, 1] array, as jax lowers it. The shape facts are
    arguments, so that each program supplies its own. -/
def softmaxInstances
    (hred : SScores.ReducesTo [0] ⟨2, ![128, 1]⟩) (h0 : 0 < (⟨0, ![]⟩ : Shape).numel)
    (hb0 : (⟨0, ![]⟩ : Shape).BroadcastsInDim ⟨2, ![128, 1]⟩ (![] : Fin 0 → Fin 2))
    (hb1 : (⟨2, ![128, 1]⟩ : Shape).BroadcastsInDim ⟨3, ![1, 128, 1]⟩ (![1, 2] : Fin 2 → Fin 3))
    (hb2 : (⟨3, ![1, 128, 1]⟩ : Shape).BroadcastsInDim SScores (![0, 1, 2] : Fin 3 → Fin 3))
    (s : FVec Ideal SScores .f32) : FVec Ideal SScores .f32 :=
  Host.divf
    (Host.exp (subf s (broadcastInDim SScores ![0, 1, 2] hb2 (broadcastInDim ⟨3, ![1, 128, 1]⟩ ![1, 2] hb1
      (maximumf (broadcastInDim ⟨2, ![128, 1]⟩ ![] hb0 (constant ⟨0, ![]⟩ .f32 0xFF800000#32))
        (Host.reduce FloatOps.maximumf s (constant ⟨0, ![]⟩ .f32 0xFF800000#32) hred h0))))))
    (broadcastInDim SScores ![0, 1, 2] hb2 (broadcastInDim ⟨3, ![1, 128, 1]⟩ ![1, 2] hb1
      (Host.reduceAdd
        (Host.exp (subf s (broadcastInDim SScores ![0, 1, 2] hb2 (broadcastInDim ⟨3, ![1, 128, 1]⟩ ![1, 2] hb1
          (maximumf (broadcastInDim ⟨2, ![128, 1]⟩ ![] hb0 (constant ⟨0, ![]⟩ .f32 0xFF800000#32))
            (Host.reduce FloatOps.maximumf s (constant ⟨0, ![]⟩ .f32 0xFF800000#32) hred h0))))))
        (constant ⟨0, ![]⟩ .f32 0x00000000#32) hred h0)))

end Cert.GatedPooling

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.BlockScore.lean ====
/-
  What one grid step of the kernel computes, read at a row.

  The step holds a block of 1024 instances (rows of 1024 features), the two projections whole and the score
  weights as one row of 512. Its result column at row `r` is the lane sum, over the 512 hidden units `l`, of
  `tanh (row r · v_l) * logistic (row r · u_l) * w_l`: the two matrix products read at `(r, l)` are sums over the
  1024 feature positions, the narrowing to bf16 is the identity on exact values, the weights' row is repeated
  down the rows, and the lane sum starts from zero. That is the score of the instance in row `r`.
-/
import proofs.«105492_j84851373899993_1_alg».proof.Proof.Gen.KernelIdeal.Skeleton
import proofs.«105492_j84851373899993_1_alg».proof.Proof.Spec
import proofs.«105492_j84851373899993_1_alg».proof.Proof.LibPlainDot
import Idealize.ShloMosaic.Lib.ValueLayout
import Idealize.ShloMosaic.Lib.Pipeline.Value
import Idealize.ShloMosaic.PureOps.Ideal.Laws

open scoped BigOperators

noncomputable section

namespace Cert.KernelIdeal.BlockScore

open Cert.KernelIdeal Cert.KernelIdeal.Gen Idealize.ShloMosaic Idealize.ShloMosaic.ValueIdx Cert.GatedPooling

/-- A product of a tanh branch, a logistic gate and a weight, entry by entry. -/
theorem gated_apply (a b w : FVec Ideal S1024x512 .f32) (j : S1024x512.Idx) :
    mulf (mulf (tanh a) (logistic b)) w j = Ideal.tanh (a j) * Ideal.logistic (b j) * w j := rfl

/-- The block's product with a projection at `(r, l)`: the sum over the feature positions. The block is narrowed
    to bf16 first, which changes no exact value. -/
theorem proj_apply (x0 : Vec Ideal S1024x1024 .f32) (p : Vec Ideal S1024x512 .bf16) (r : Fin 1024) (l : Fin 512) :
    matmul (F := Ideal) (φ₁ := .bf16) (φ₂ := .bf16) dot_S1024x1024_S1024x512_S1024x512_1_0_0_1_n_n none
        (truncf .bf16 (shapeCast S1024x1024 x0 shapeCasts_S1024x1024_S1024x1024 : FVec Ideal S1024x1024 .f32) bitsLt_bf16_f32)
        (shapeCast S1024x512 p shapeCasts_S1024x512_S1024x512 : FVec Ideal S1024x512 .bf16)
        (constant (F := Ideal) S1024x512 .f32 0x00000000#32) (ix2 r l)
      = ∑ d : Fin 1024, x0 (ix2 r d) * p (ix2 d l) := by
  refine (PlainDot.matmul_zero_apply dot_S1024x1024_S1024x512_S1024x512_1_0_0_1_n_n rfl rfl rfl rfl rfl rfl rfl rfl none _ _ r l).trans ?_
  refine Finset.sum_congr rfl fun d _ => ?_
  exact congrArg₂ (· * ·) (congrFun (shapeCast_self x0 _) (ix2 r d)) (congrFun (shapeCast_self p _) (ix2 d l))

/-- The lane axis put back into a row index. -/
theorem lift_row (r : Fin 1024) (l : Fin 512) :
    reduces_S1024x512_S1024.lift (ix1 r) l = ix2 r l := by
  funext a
  match a with
  | ⟨0, _⟩ => rfl
  | ⟨1, _⟩ => rfl

/-- The step's result column at row `r` is the score of that row. -/
theorem pay_apply (x0 : Vec Ideal S1024x1024 .f32) (x1 x2 : Vec Ideal S1024x512 .bf16) (x3 : Vec Ideal S1x512 .f32)
    (r : Fin 1024) :
    k0_pay1 (F := Ideal) x0 x1 x2 x3 (ix2 r (0 : Fin 1))
      = rowScore (fun d => x0 (ix2 r d)) x1 x2 (fun l => x3 (ix2 (0 : Fin 1) l)) := by
  unfold k0_pay1
  refine (shapeCast_apply _ shapeCasts_S1024_S1024x1 (ix2 r (0 : Fin 1)) (ix1 r) ?_).trans ?_
  · rw [Shape.rowMajor_val_one, Shape.rowMajor_val_two]
    show r.val = r.val * 1 + 0
    omega
  refine (Ideal.multiReduction_add_single _ _ reduces_S1024x512_S1024 (.inl rfl) rfl (ix1 r)).trans ?_
  unfold rowScore
  refine Finset.sum_congr rfl fun l _ => ?_
  refine (congrArg _ (lift_row r l)).trans ?_
  refine (gated_apply _ _ _ (ix2 r l)).trans ?_
  refine congrArg₂ (· * ·) (congrArg₂ (· * ·) (congrArg Ideal.tanh (proj_apply x0 x1 r l))
    (congrArg Ideal.logistic (proj_apply x0 x2 r l))) ?_
  refine (broadcastTo_1b_ab_apply _ broadcasts_S1x512_S1024x512 r l).trans ?_
  exact congrFun (shapeCast_self x3 _) (ix2 (0 : Fin 1) l)

end Cert.KernelIdeal.BlockScore

end
-- ==== Proof.KernelScores.lean ====
/-
  The kernel program's arrays, read as the specification.

  Before the kernel the bag is flattened to 32768 rows (row `n * 128 + b` is instance `n` of batch entry `b`),
  the two projections are narrowed to bf16 (the identity on exact values) and the score weights are laid out
  as one row. Grid step `t` of 32 holds rows `1024 t … 1024 t + 1023` of the flattened bag with both projections
  and the weights whole, and writes rows `1024 t …` of the [32768, 1] result: each row the score of its
  instance. The 32 blocks tile the result, so after the kernel it is the flat array of scores. The lines
  after the kernel reshape it to [256, 128, 1] and take the softmax over the instance axis.
-/
import proofs.«105492_j84851373899993_1_alg».proof.Proof.Gen.KernelIdeal.Frame
import proofs.«105492_j84851373899993_1_alg».proof.Proof.BlockScore
import proofs.«105492_j84851373899993_1_alg».proof.Proof.Spec
import Idealize.ShloMosaic.Lib.Pipeline.Value
import Idealize.ShloMosaic.Lib.StableHlo.Run
import Idealize.ShloMosaic.Lib.ValueLayout

open scoped BigOperators

noncomputable section

namespace Cert.KernelIdeal.Scores

open Cert.KernelIdeal Cert.KernelIdeal.Gen Idealize.ShloMosaic Idealize.ShloMosaic.TcCoe Idealize.SL.Sem
open Idealize.ShloMosaic.Pipeline (Dat)
open Idealize.ShloMosaic.ValueIdx Cert.GatedPooling

variable (m : (ℓ : Loc nD τ sig) → Buf (Elt Ideal) ℓ) (ρ : Dev nD → PrngReg)

/-! ## The arrays the kernel finds, and its blocks, at their literal types -/

abbrev bagArr (c : Dev nD) : Vec Ideal S32768x1024 .f32 := V m c main_v0
abbrev vArr (c : Dev nD) : Vec Ideal S1024x512 .bf16 := V m c main_v1
abbrev uArr (c : Dev nD) : Vec Ideal S1024x512 .bf16 := V m c main_v2
abbrev wArr (c : Dev nD) : Vec Ideal S1x512 .f32 := V m c main_v3

abbrev bagBlk (c : Dev nD) (t : Fin cfg0.N) : Vec Ideal S1024x1024 .f32 := iblk m c 0 t
abbrev vBlk (c : Dev nD) (t : Fin cfg0.N) : Vec Ideal S1024x512 .bf16 := iblk m c 1 t
abbrev uBlk (c : Dev nD) (t : Fin cfg0.N) : Vec Ideal S1024x512 .bf16 := iblk m c 2 t
abbrev wBlk (c : Dev nD) (t : Fin cfg0.N) : Vec Ideal S1x512 .f32 := iblk m c 3 t

/-- The arguments as launched. -/
abbrev xIn (c : Dev nD) : SBag.Idx → EReal := m ((c : Thread nD τ).loc main_arg0)
abbrev vIn (c : Dev nD) : SProj.Idx → EReal := m ((c : Thread nD τ).loc main_arg1)
abbrev uIn (c : Dev nD) : SProj.Idx → EReal := m ((c : Thread nD τ).loc main_arg2)
abbrev wIn (c : Dev nD) : SCol.Idx → EReal := m ((c : Thread nD τ).loc main_arg3)

/-! ## The lines before the kernel -/

theorem bagArr_eq (c : Dev nD) :
    bagArr m c = shapeCast S32768x1024 (xIn m c) shapeCasts_S256x128x1024_S32768x1024 := by
  show StableHlo.after hostOps0 (fun b => m (c, b)) (Proc.devRef .tc main_v0) = _
  after_results
  rfl

theorem vArr_eq (c : Dev nD) : vArr m c = vIn m c := by
  show StableHlo.after hostOps0 (fun b => m (c, b)) (Proc.devRef .tc main_v1) = _
  after_results
  rfl

theorem uArr_eq (c : Dev nD) : uArr m c = uIn m c := by
  show StableHlo.after hostOps0 (fun b => m (c, b)) (Proc.devRef .tc main_v2) = _
  after_results
  rfl

theorem wArr_eq (c : Dev nD) :
    wArr m c = transpose S1x512 [1, 0] (wIn m c) transposes_S512x1_S1x512_1_0 := by
  show StableHlo.after hostOps0 (fun b => m (c, b)) (Proc.devRef .tc main_v3) = _
  after_results

/-- Row `r` of the flattened bag is instance `r / 128` of batch entry `r % 128`. -/
theorem bagArr_apply (c : Dev nD) (r : Fin 32768) (d : Fin 1024) :
    bagArr m c (ix2 r d) = xIn m c (ix3 (flatInst r) (flatBatch r) d) := by
  rw [bagArr_eq]
  refine shapeCast_apply _ _ _ _ ?_
  rw [Shape.rowMajor_val_two, Shape.rowMajor_val_three]
  show ((r.val / 128) * 128 + r.val % 128) * 1024 + d.val = r.val * 1024 + d.val
  have := Nat.div_add_mod r.val 128
  omega

/-- The weights' row at `l` is the weight of hidden unit `l`. -/
theorem wArr_apply (c : Dev nD) (l : Fin 512) : wArr m c (ix2 (0 : Fin 1) l) = wIn m c (ix2 l (0 : Fin 1)) := by
  rw [wArr_eq]
  exact transpose_ix2_apply (wIn m c) transposes_S512x1_S1x512_1_0 (0 : Fin 1) l

/-! ## The blocks -/

/-- The printed index maps, decided over the 32 grid steps: the bag's and the result's blocks are block row `t`,
    every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem steps : cfg0.N = 32 := N_0

theorem row_lt (t : Fin cfg0.N) (r : Fin 1024) : t.val * 1024 + r.val < 32768 := by
  have h1 := t.isLt
  have h2 : cfg0.N = 32 := steps
  have h3 := r.isLt
  omega

/-- Row `r` of step `t`'s bag block is row `1024 t + r` of the flattened bag. -/
theorem bagBlk_apply (c : Dev nD) (t : Fin cfg0.N) (r : Fin 1024) (d : Fin 1024) :
    bagBlk m c t (ix2 r d) = bagArr m c (ix2 ⟨t.val * 1024 + r.val, row_lt t r⟩ d) := by
  obtain ⟨e0, e1, -⟩ := idx_facts t
  show V m c main_v0 (((cfg0.win 0).blk t).view.emb (ix2 r d)) = V m c main_v0 _
  refine congrArg _ (funext fun a => Fin.ext ?_)
  match a with
  | ⟨0, _⟩ => show win0_0.index t (0 : Fin 2) * 1024 + 1 * r.val = t.val * 1024 + r.val; omega
  | ⟨1, _⟩ => show win0_0.index t (1 : Fin 2) * 1024 + 1 * d.val = d.val; omega

/-- The projections' and the weights' blocks are the whole arrays. -/
theorem vBlk_eq (c : Dev nD) (t : Fin cfg0.N) : vBlk m c t = vArr m c := by
  obtain ⟨-, -, e0, e1, -⟩ := idx_facts t
  funext y
  show V m c main_v1 (((cfg0.win 1).blk t).view.emb y) = V m c main_v1 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 512 + 1 * (y 1).val = (y 1).val; omega

theorem uBlk_eq (c : Dev nD) (t : Fin cfg0.N) : uBlk m c t = uArr m c := by
  obtain ⟨-, -, -, -, e0, e1, -⟩ := idx_facts t
  funext y
  show V m c main_v2 (((cfg0.win 2).blk t).view.emb y) = V m c main_v2 y
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 512 + 1 * (y 1).val = (y 1).val; omega

theorem wBlk_eq (c : Dev nD) (t : Fin cfg0.N) : wBlk m c t = wArr m c := by
  obtain ⟨-, -, -, -, -, -, e0, e1, -⟩ := idx_facts t
  funext y
  show V m c main_v3 (((cfg0.win 3).blk t).view.emb y) = V m c main_v3 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 512 + 1 * (y 1).val = (y 1).val; omega

/-! ## What a step writes back -/

theorem hz : (![0, 0] : Fin 2 → Nat) = fun _ => 0 := funext fun a => by fin_cases a <;> rfl

/-- Row `r` of what step `t` computes is the score of row `1024 t + r` of the flattened bag. -/
theorem block_eq (c : Dev nD) (t : Fin cfg0.N) (r : Fin 1024) :
    k0_pay1 (F := Ideal) (bagBlk m c t) (vBlk m c t) (uBlk m c t) (wBlk m c t) (ix2 r (0 : Fin 1))
      = flatScores (xIn m c) (vIn m c) (uIn m c) (wIn m c)
          (ix2 ⟨t.val * 1024 + r.val, row_lt t r⟩ (0 : Fin 1)) := by
  refine (BlockScore.pay_apply (bagBlk m c t) (vBlk m c t) (uBlk m c t) (wBlk m c t) r).trans ?_
  rw [vBlk_eq, uBlk_eq, wBlk_eq, vArr_eq, uArr_eq]
  unfold flatScores rowScore
  refine Finset.sum_congr rfl fun l _ => ?_
  dsimp only
  rw [wArr_apply]
  have hx : ∀ d : Fin 1024, bagBlk m c t (ix2 r d)
      = xIn m c (ix3 (flatInst ⟨t.val * 1024 + r.val, row_lt t r⟩) (flatBatch ⟨t.val * 1024 + r.val, row_lt t r⟩) d) :=
    fun d => (bagBlk_apply m c t r d).trans (bagArr_apply m c _ d)
  simp only [hx]

/-- Step `t` writes block `t` of the flat array of scores. -/
theorem flushed_eq (c : Dev nD) (t : Fin cfg0.N) :
    (dats m 0 c).flushed 4 t
      = ((cfg0.win 4).blk t).view.read (Elt Ideal) (flatScores (xIn m c) (vIn m c) (uIn m c) (wIn m c)) := by
  show (cfg0.win 4).cut (grid0.coords t) ((dats m 0 c).after 4 t) = _
  rw [after0_4]
  unfold out0_4
  rw [View.canon_unit_zero hz]
  simp only [View.ld_unit_zero (S := S1024x1024) hz, View.ld_unit_zero (S := S1024x512) hz,
    View.ld_unit_zero (S := S1x512) hz]
  obtain ⟨-, -, -, -, -, -, -, -, e0, e1⟩ := idx_facts t
  funext j
  obtain ⟨r, rfl⟩ : ∃ r : Fin 1024, j = ix2 r (0 : Fin 1) := ⟨j 0, funext fun a => Fin.ext (by
    match a with
    | ⟨0, _⟩ => rfl
    | ⟨1, _⟩ => have : (j 1).val < 1 := (j 1).isLt; show (j 1).val = 0; omega)⟩
  refine (block_eq m c t r).trans ?_
  show flatScores (xIn m c) (vIn m c) (uIn m c) (wIn m c) _
    = flatScores (xIn m c) (vIn m c) (uIn m c) (wIn m c) (((cfg0.win 4).blk t).view.emb (ix2 r (0 : Fin 1)))
  refine congrArg _ (funext fun a => Fin.ext ?_)
  match a with
  | ⟨0, _⟩ => show t.val * 1024 + r.val = win0_4.index t (0 : Fin 2) * 1024 + 1 * r.val; omega
  | ⟨1, _⟩ => show 0 = win0_4.index t (1 : Fin 2) * 1 + 1 * 0; omega

/-! ## The cover, and the array after the kernel -/

theorem mem_blk (t : Fin cfg0.N) (i : S32768x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v4).slice (win0_4.rect t)).set ↔ _
  rw [View.set_slice_whole, Rect.mem_set_unit]
  exact Iff.rfl

/-- Row `i` of the result is in the block of step `i / 1024`. -/
theorem cover (i : S32768x1.Idx) :
    ∃ t : Fin cfg0.N, (cfg0.win 4).flush t = true ∧ i ∈ ((cfg0.win 4).blk t).view.set := by
  have hi0 : (i 0).val < 32768 := (i 0).isLt
  have hi1 : (i 1).val < 1 := (i 1).isLt
  let t : Fin cfg0.N := ⟨(i 0).val / 1024, by rw [steps]; omega⟩
  obtain ⟨-, -, -, -, -, -, -, -, e0, e1⟩ := idx_facts t
  have ht : t.val = (i 0).val / 1024 := rfl
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1 ≤ (i 1).val ∧ (i 1).val < win0_4.index t (1 : Fin 2) * 1 + 1
    omega

/-- After the kernel the result array is the flat array of scores. -/
theorem final (c : Dev nD) :
    (dats m 0 c).arrAt 4 cfg0.N = flatScores (xIn m c) (vIn m c) (uIn m c) (wIn m c) :=
  (dats m 0 c).arrAt_eq_of_cover 4 _ (fun t _ => flushed_eq m c t) cover

/-! ## The lines after the kernel -/

/-- The lines after the kernel as one function of the kernel's result array. -/
def tail (a : Vec Ideal S32768x1 .f32) : Vec Ideal S256x128x1 .f32 :=
  softmaxInstances reducesTo_S256x128x1_S128x1_d0 h_S_ bcast_S_S128x1 bcast_S128x1_S1x128x1_1_2
    bcast_S1x128x1_S256x128x1_0_1_2 (shapeCast S256x128x1 a shapeCasts_S32768x1_S256x128x1)

/-- The program's result is the softmax, over the instance axis, of the array of scores. -/
theorem result_eq (c : Dev nD) :
    Pipeline.afterTail₀ cfgs (dats m) 0 (V0 m) [hostOps1] c main_v16
      = softmaxInstances reducesTo_S256x128x1_S128x1_d0 h_S_ bcast_S_S128x1 bcast_S128x1_S1x128x1_1_2
          bcast_S1x128x1_S256x128x1_0_1_2 (scores (xIn m c) (vIn m c) (uIn m c) (wIn m c)) := by
  have hA : Pipeline.withArrays spec0 c (V0 m c) (fun w => (dats m 0 c).arrAt w cfg0.N) (Proc.devRef .tc main_v4)
      = flatScores (xIn m c) (vIn m c) (uIn m c) (wIn m c) :=
    (Pipeline.withArrays_arr spec0 launch0.win.arr_inj c _ _ 4).trans (final m c)
  have hT : Pipeline.afterTail₀ cfgs (dats m) 0 (V0 m) [hostOps1] c main_v16
      = tail (Pipeline.withArrays spec0 c (V0 m c) (fun w => (dats m 0 c).arrAt w cfg0.N) (Proc.devRef .tc main_v4)) := by
    unfold Pipeline.afterTail₀
    show StableHlo.after hostOps1 _ (Proc.devRef .tc main_v16) = _
    after_results
    rfl
  rw [hT, hA]
  unfold tail
  rw [shapeCast_flatScores]

/-! ## The run, read -/

/-- Every execution of the kernel program ends with its result at the softmax of the scores and its arguments
    as launched. -/
theorem run : θ_run defs (onTc (τ := τ) (main (F := Ideal))) ⟨m, fun _ => 0, ρ⟩ fun r => ∀ c : Dev nD,
      r.2.mem ((c : Thread nD τ).loc main_v16)
        = softmaxInstances reducesTo_S256x128x1_S128x1_d0 h_S_ bcast_S_S128x1 bcast_S128x1_S1x128x1_1_2
            bcast_S1x128x1_S256x128x1_0_1_2 (scores (xIn m c) (vIn m c) (uIn m c) (wIn m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v16 (Pipeline.mem_restRefs_of main_v16 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Scores

end
-- ==== Proof.RefScores.lean ====
/-
  The reference program, read as the specification.

  Its first thirteen operations compute the [256, 128, 1] array of scores: two contractions of the bag with the
  projections over the feature axis, tanh of the first, the logistic function of the second spelt
  `1 / (1 + exp (-z))`, their product, and its contraction with the score weights over the hidden axis. On the
  extended reals `1 / (1 + exp (-z))` is the logistic function by definition, so entry `(n, b, 0)` is the score
  of instance `n` of batch entry `b`. The remaining operations are the softmax over the instance axis.
-/
import proofs.«105492_j84851373899993_1_alg».proof.Proof.Gen.ReferenceIdeal.Read
import proofs.«105492_j84851373899993_1_alg».proof.Proof.Spec
import Idealize.ShloMosaic.Lib.IdealHost

open scoped BigOperators

noncomputable section

namespace Cert.ReferenceIdeal.Scores

open Cert.ReferenceIdeal Cert.ReferenceIdeal.Gen Cert.ReferenceIdeal.Read Idealize.ShloMosaic
  Idealize.ShloMosaic.ValueIdx Cert.GatedPooling

/-- jax's expansion of the logistic function, entry by entry: `1 / (1 + exp (-z))` with both ones the f32 one. -/
theorem gate_apply (x0 : (⟨S256x128x1024, .f32⟩ : BufTy).Contents (Elt Ideal))
    (x2 : (⟨S1024x512, .f32⟩ : BufTy).Contents (Elt Ideal)) (j : S256x128x512.Idx) :
    val_main_v8 (F := Ideal) x0 x2 j = Ideal.logistic (val_main_v2 (F := Ideal) x0 x2 j) := by
  rw [val_main_v8_apply, val_main_v7_apply, val_main_cst_0_apply, val_main_v6_apply, val_main_v5_apply,
    val_main_cst_apply, val_main_v4_apply, val_main_v3_apply]
  show Ideal.div (Ideal.ofBits .f32 0x3F800000#32)
    (Ideal.ofBits .f32 0x3F800000#32 + Ideal.exp (-(val_main_v2 (F := Ideal) x0 x2 j))) = _
  rw [Ideal.ofBits_one_f32]
  rfl

/-- The thirteenth operation's result is the array of scores. -/
theorem scores_eq (x0 : (⟨S256x128x1024, .f32⟩ : BufTy).Contents (Elt Ideal))
    (x1 x2 : (⟨S1024x512, .f32⟩ : BufTy).Contents (Elt Ideal)) (x3 : (⟨S512x1, .f32⟩ : BufTy).Contents (Elt Ideal)) :
    val_main_v10 (F := Ideal) x0 x1 x2 x3 = scores x0 x1 x2 x3 := by
  funext i
  rw [val_main_v10_apply]
  unfold scores rowScore
  refine Finset.sum_congr rfl fun l _ => ?_
  have h2 : (i 2).val = 0 := by have := (i 2).isLt; simp at this; omega
  have er : ridx_main_v10 i l = ix2 l (0 : Fin 1) := funext fun a => Fin.ext (by
    match a with
    | ⟨0, _⟩ => rfl
    | ⟨1, _⟩ => exact h2)
  have el0 : ∀ d : Fin 1024, lidx_main_v0 (lidx_main_v10 i l) d = ix3 (i 0) (i 1) d := fun d => funext fun a => Fin.ext (by
    match a with
    | ⟨0, _⟩ => rfl
    | ⟨1, _⟩ => rfl
    | ⟨2, _⟩ => rfl)
  have er0 : ∀ d : Fin 1024, ridx_main_v0 (lidx_main_v10 i l) d = ix2 d l := fun d => funext fun a => Fin.ext (by
    match a with
    | ⟨0, _⟩ => rfl
    | ⟨1, _⟩ => rfl)
  have el2 : ∀ d : Fin 1024, lidx_main_v2 (lidx_main_v10 i l) d = ix3 (i 0) (i 1) d := fun d => funext fun a => Fin.ext (by
    match a with
    | ⟨0, _⟩ => rfl
    | ⟨1, _⟩ => rfl
    | ⟨2, _⟩ => rfl)
  have er2 : ∀ d : Fin 1024, ridx_main_v2 (lidx_main_v10 i l) d = ix2 d l := fun d => funext fun a => Fin.ext (by
    match a with
    | ⟨0, _⟩ => rfl
    | ⟨1, _⟩ => rfl)
  rw [er, val_main_v9_apply, val_main_v1_apply, gate_apply, val_main_v0_apply, val_main_v2_apply]
  simp only [el0, er0, el2, er2]
  rfl

/-- The program's result is the softmax, over the instance axis, of the array of scores. -/
theorem result_eq (x0 : (⟨S256x128x1024, .f32⟩ : BufTy).Contents (Elt Ideal))
    (x1 x2 : (⟨S1024x512, .f32⟩ : BufTy).Contents (Elt Ideal)) (x3 : (⟨S512x1, .f32⟩ : BufTy).Contents (Elt Ideal)) :
    val_main_v21 (F := Ideal) x0 x1 x2 x3
      = softmaxInstances reducesTo_S256x128x1_S128x1_d0 h_S_ bcast_S_S128x1 bcast_S128x1_S1x128x1_1_2
          bcast_S1x128x1_S256x128x1_0_1_2 (scores x0 x1 x2 x3) := by
  rw [← scores_eq]
  rfl

end Cert.ReferenceIdeal.Scores

end
-- ==== Proof.lean ====
/-
  Gated attention pooling: the kernel program against its jnp reference, on the extended reals.

  Both programs compute, for a bag of 256 instances per batch entry, the softmax over the instances of the
  scores `∑ l, tanh (x · v_l) * logistic (x · u_l) * w_l`. The kernel program flattens the bag to 32768 rows and
  scores 1024 rows per grid step with two matrix products, a lane sum and the hardware's logistic; the reference
  contracts the whole bag at once and spells the logistic `1 / (1 + exp (-z))`. On the extended reals a change
  of float format is the identity, the two spellings of the logistic are one function by definition, and both
  contractions are the same finite sums in the same order, so no algebraic law and no finiteness is needed: the
  two arrays of scores are equal index by index (row `n * 128 + b` of the flat layout is entry `(n, b, 0)`), and
  the softmax lines after them are the same operations.

  The frames of the two kernel programs are the launch and body proofs over the pipeline; the reference's frame
  is its run with the result dropped. The idealization rewrote nothing, so there is nothing to preserve.
-/
import proofs.«105492_j84851373899993_1_alg».proof.Defs
import proofs.«105492_j84851373899993_1_alg».proof.Proof.Gen.Kernel
import proofs.«105492_j84851373899993_1_alg».proof.Proof.Gen.Kernel.Frame
import proofs.«105492_j84851373899993_1_alg».proof.Proof.Gen.KernelIdeal
import proofs.«105492_j84851373899993_1_alg».proof.Proof.Gen.KernelIdeal.Frame
import proofs.«105492_j84851373899993_1_alg».proof.Proof.Gen.ReferenceIdeal
import proofs.«105492_j84851373899993_1_alg».proof.Proof.Gen.ReferenceIdeal.Run
import proofs.«105492_j84851373899993_1_alg».proof.Proof.Gen.ReferenceIdeal.Read
import proofs.«105492_j84851373899993_1_alg».proof.Proof.Gen.Pre_finite_inputs
import proofs.«105492_j84851373899993_1_alg».proof.Proof.Spec
import proofs.«105492_j84851373899993_1_alg».proof.Proof.KernelScores
import proofs.«105492_j84851373899993_1_alg».proof.Proof.RefScores
import Idealize.ShloMosaic.Adequacy
import Idealize.ShloMosaic.Init

noncomputable section

namespace Cert.Proof

open Idealize.ShloMosaic Idealize.ShloMosaic.TcCoe Idealize.SL.Sem Cert.GatedPooling

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end at the softmax over the instances of one array of scores. -/
theorem algebraic : Cert.algebraic_KernelIdeal_ReferenceIdeal := by
  intro m ρ m' ρ' _ hagree
  refine ⟨_, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.Scores.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
